-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x128x32x32 : Shape := ⟨5, ![16, 32, 128, 32, 32]⟩
abbrev S_ : Shape := ⟨0, ![]⟩

class Facts : Prop where
  bcast_S_S16x32x128x32x32 : S_.BroadcastsInDim S16x32x128x32x32 (![] : Fin 0 → Fin S16x32x128x32x32.rank)
  reducesTo_S16x32x128x32x32_S_d0_1_2_3_4 : S16x32x128x32x32.ReducesTo [0, 1, 2, 3, 4] S_
  h_S_ : 0 < S_.numel

variable [Facts]

def fn {F : FTy → Type} [FloatOps F] (main_arg0 : FVec F S16x32x128x32x32 .f32) : IVec S_ 1 :=
  let main_v0 : FVec F S16x32x128x32x32 .f32 := Host.absf main_arg0
  let main_cst : FVec F S_ .f32 := constant S_ .f32 0x7F800000#32
  let main_v1 : FVec F S16x32x128x32x32 .f32 := broadcastInDim S16x32x128x32x32 ![] bcast_S_S16x32x128x32x32 main_cst
  let main_v2 : IVec S16x32x128x32x32 1 := cmpf .olt main_v0 main_v1
  let main_c : IVec S_ 1 := constantI S_ 1 1#1
  let main_v3 : IVec S_ 1 := (fun x v => Host.reduce IntOp.andi x v reducesTo_S16x32x128x32x32_S_d0_1_2_3_4 h_S_) main_v2 main_c
  main_v3
-- ==== Kernel.lean ====
abbrev S16x32x128x32x32 : Shape := ⟨5, ![16, 32, 128, 32, 32]⟩
abbrev S524288x128 : Shape := ⟨2, ![524288, 128]⟩
abbrev S8192x128 : Shape := ⟨2, ![8192, 128]⟩

abbrev nBuf : Space → Nat
  | .hbm => 4
  | .vmem => 4
  | .smem => 0
  | _ => 0

abbrev bufTy : (tb : Table) → Fin (tcTables nBuf tb) → BufTy
  | .hbm, ⟨0, _⟩ => ⟨S16x32x128x32x32, .f32⟩
  | .hbm, ⟨1, _⟩ => ⟨S524288x128, .f32⟩
  | .hbm, ⟨2, _⟩ => ⟨S524288x128, .f32⟩
  | .hbm, ⟨3, _⟩ => ⟨S16x32x128x32x32, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S16x32x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x32x128x32x32_S524288x128 : S16x32x128x32x32.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  shapeCasts_S524288x128_S16x32x128x32x32 : S524288x128.ShapeCasts S16x32x128x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x32x128x32x32 : Shape := ⟨5, ![16, 32, 128, 32, 32]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x32x128x32x32, .f32⟩
  | .hbm, ⟨1, _⟩ => ⟨S_, .f32⟩
  | .hbm, ⟨2, _⟩ => ⟨S16x32x128x32x32, .f32⟩
  | .hbm, ⟨3, _⟩ => ⟨S16x32x128x32x32, .f32⟩
  | .hbm, ⟨4, _⟩ => ⟨S_, .f32⟩
  | .hbm, ⟨5, _⟩ => ⟨S16x32x128x32x32, .f32⟩
  | .hbm, ⟨6, _⟩ => ⟨S16x32x128x32x32, .i1⟩
  | .hbm, ⟨7, _⟩ => ⟨S16x32x128x32x32, .f32⟩
  | _, _ => ⟨S16x32x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S16x32x128x32x32 : S_.BroadcastsInDim S16x32x128x32x32 (![] : Fin 0 → Fin S16x32x128x32x32.rank)

variable [Facts₀]

class Facts : Prop extends Facts₀ where

variable [Facts]
-- ==== Proof.Spike.lean ====
/-
  The scalar mathematics of a leaky integrate-and-fire step whose membrane potential is reset before every
  timestep: the potential is the input current itself, and a neuron fires exactly when its current reaches the
  threshold. Read on the extended reals, a spike is the indicator

      spike a = 1  if  threshold ≤ a,   0  otherwise,

  the threshold being the value of the single-precision word `0x3F800000` (the number one; the word is kept as a
  word and is never evaluated, since both programs carry the same one).

  Two spellings of that indicator are shown to be `spike`:
  * compare, widen the one-bit answer to thirty-two bits with zeros, and read the word as a SIGNED integer;
  * add zero to the current first, compare, and read the one-bit answer as an UNSIGNED integer.
  They agree because a zero-extended bit is a non-negative word, so its signed and unsigned readings coincide, and
  because `0 + a = a` for every extended real `a`, the two infinities included. No finiteness is used.
-/
import Idealize.ShloMosaic.PureOps.Ideal
import Idealize.ShloMosaic.PureOps.Ideal.Laws

noncomputable section

namespace Cert.Lif

open Idealize.ShloMosaic

/-- One spike: the indicator, as an extended real, that the current `a` has reached the threshold. -/
def spike (a : EReal) : EReal :=
  (((Ideal.cmp .oge a (Ideal.ofBits .f32 0x3F800000#32)).toNat : ℝ) : EReal)

/-- A single bit widened with zeros to thirty-two bits is a non-negative word: read as a signed integer it is
    the bit read as a natural number. Both bits are checked. -/
theorem toInt_widen_bit (b : BitVec 1) : ((b.setWidth 32).toInt : ℝ) = (b.toNat : ℝ) := by
  have h : ∀ b : BitVec 1, (b.setWidth 32).toInt = (b.toNat : ℤ) := by decide
  rw [h b, Int.cast_natCast]

/-- Compare with the threshold, widen, convert as a signed integer: a spike. -/
theorem spike_of_signed (a : Ideal .f32) :
    FloatOps.sitofp (F := Ideal) .f32
        ((FloatOps.cmpf (F := Ideal) .oge a (Scalar.ofBits (F := Ideal) .f32 0x3F800000#32)).setWidth 32)
      = spike a := by
  show (((((Ideal.cmp .oge a (Ideal.ofBits .f32 0x3F800000#32)).setWidth 32).toInt : ℝ)) : EReal) = spike a
  rw [toInt_widen_bit]
  rfl

/-- Add zero, compare with the threshold, convert as an unsigned integer: the same spike. -/
theorem spike_of_unsigned (a : Ideal .f32) :
    FloatOps.uitofp (F := Ideal) .f32
        (FloatOps.cmpf (F := Ideal) .oge
          (FloatOps.addf (FloatOps.ofBits (F := Ideal) .f32 0x00000000#32) a)
          (FloatOps.ofBits (F := Ideal) .f32 0x3F800000#32))
      = spike a := by
  show ((((Ideal.cmp .oge (Ideal.ofBits .f32 0x00000000#32 + a) (Ideal.ofBits .f32 0x3F800000#32)).toNat : ℝ)) : EReal)
    = spike a
  rw [Ideal.ofBits_zero_f32, zero_add]
  rfl

end Cert.Lif

end
-- ==== Proof.ReferenceSpike.lean ====
/-
  The reference program, index by index. It forms `0 + x`, compares the sum with the threshold and converts
  the one-bit answer to a float as an unsigned integer; so its result holds, at every index `i` of the
  [16, 32, 128, 32, 32] array of currents, the spike of the current `x i`.
-/
import proofs.«141666_j17497696764281_1_alg».proof.Proof.Gen.ReferenceIdeal.Read
import proofs.«141666_j17497696764281_1_alg».proof.Proof.Spike

noncomputable section

namespace Cert.ReferenceIdeal.Spikes

open Idealize.ShloMosaic Cert.ReferenceIdeal Cert.ReferenceIdeal.Read Cert.Lif

/-- The reference's last stage is the array of spikes of its argument. -/
theorem result_eq (x : S16x32x128x32x32.Idx → Ideal .f32) :
    val_main_v4 (F := Ideal) x = fun i => spike (x i) := by
  funext i
  rw [val_main_v4_apply, val_main_v3_apply, val_main_v1_apply, val_main_v0_apply, val_main_v2_apply,
    val_main_cst_apply, val_main_cst_0_apply]
  exact spike_of_unsigned (x i)

end Cert.ReferenceIdeal.Spikes

end
-- ==== Proof.KernelBlocks.lean ====
/-
  The kernel, block by block. The currents are laid out as a [524288, 128] array; the grid has 64 points, and
  point `t` reads rows `8192·t … 8192·t + 8191` of that array (all 128 lanes), replaces every current by its spike,
  and writes the rows back at the same place of the output array. The input block and the output block of a point
  sit at the same rows, the 64 blocks tile the array, and a spike depends on its own current only; so after the
  run the output array holds, at every index, the spike of the current the region found there.
-/
import proofs.«141666_j17497696764281_1_alg».proof.Proof.Gen.KernelIdeal.Frame
import proofs.«141666_j17497696764281_1_alg».proof.Proof.Spike
import Idealize.ShloMosaic.Lib.Pipeline.Value

set_option maxRecDepth 16384

noncomputable section

namespace Cert.KernelIdeal.Spikes

open Idealize.ShloMosaic Idealize.ShloMosaic.TcCoe Idealize.SL.Sem
open Cert.KernelIdeal Cert.KernelIdeal.Gen Cert.Lif

variable (m : (ℓ : Loc nD τ sig) → Buf (Elt Ideal) ℓ) (ρ : Dev nD → PrngReg)

/-- The body's arithmetic on a block of currents is the spike of each. -/
theorem payload_eq (x0 : Vec Ideal S8192x128 .f32) : k0_pay1 (F := Ideal) x0 = fun j => spike (x0 j) := by
  funext j
  unfold k0_pay1
  simp only [shapeCast_self]
  exact spike_of_signed (x0 j)

theorem origin_eq : (![0, 0] : Fin 2 → Nat) = fun _ => 0 := funext fun a => by fin_cases a <;> rfl

/-- The array of spikes of the currents the region finds in its input array. -/
abbrev spikes (c : Dev nD) : S524288x128.Idx → Elt Ideal .f32 := fun j => spike (V m c main_v0 j)

/-- The two windows' index maps, decided over the grid: a point's input block and output block have the same
    block index on both axes, the row-block index runs over 0 … 63 and the lane-block index is 0. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) ≤ 63
    ∧ win0_1.index t (1 : Fin 2) = 0 :=
  (by decide +kernel : ∀ t : Fin grid0.N, _)

/-- Every row block is some point's. -/
theorem index_onto : ∀ q : Fin 64, ∃ t : Fin cfg0.N, win0_1.index t = ![q.val, 0] :=
  (by decide +kernel : ∀ q : Fin 64, ∃ t : Fin grid0.N, win0_1.index t = ![q.val, 0])

/-- What point `t` writes back is block `t` of the array of spikes. -/
theorem flushed_eq (c : Dev nD) (t : Fin cfg0.N) :
    (dats m 0 c).flushed 1 t = ((cfg0.win 1).blk t).view.read (Elt Ideal) (spikes m c) := by
  show (cfg0.win 1).cut (grid0.coords t) ((dats m 0 c).after 1 t) = _
  rw [after0_1]
  unfold out0_1
  rw [View.canon_unit_zero origin_eq]
  simp only [View.ld_unit_zero (S := S8192x128) origin_eq]
  rw [payload_eq]
  obtain ⟨e0, e1, -, -⟩ := index_facts t
  funext j
  show spike (V m c main_v0 (((cfg0.win 0).blk t).view.emb j)) = spike (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  rw [h0]

/-- An index of the output array is in point `t`'s block iff each coordinate is in the block's range on its axis. -/
theorem mem_block (t : Fin cfg0.N) (i : S524288x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- The blocks tile the output array: row `r` lies in the block of the point whose row-block index is `r / 8192`. -/
theorem covered (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  obtain ⟨t, ht⟩ := index_onto ⟨(i 0).val / 8192, by omega⟩
  have q0 : win0_1.index t (0 : Fin 2) = (i 0).val / 8192 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- The output array after the run is the array of spikes. -/
theorem output_eq (c : Dev nD) : (dats m 0 c).arrAt 1 cfg0.N = spikes m c :=
  (dats m 0 c).arrAt_eq_of_cover 1 (spikes m c) (fun t _ => flushed_eq m c t) covered

end Cert.KernelIdeal.Spikes

end
-- ==== Proof.KernelRun.lean ====
/-
  The kernel program from end to end. Before the region one host line lays the [16, 32, 128, 32, 32] currents out
  as [524288, 128], row-major; the region turns that array into the array of its spikes, block by block; after the
  region one host line lays the [524288, 128] result out as [16, 32, 128, 32, 32] again. The two re-layings are
  inverse to each other and a spike is taken element by element, so the program's result holds at every index `i`
  of the original shape the spike of the current at `i`.
-/
import proofs.«141666_j17497696764281_1_alg».proof.Proof.KernelBlocks
import Idealize.ShloMosaic.Lib.StableHlo.Run

set_option maxRecDepth 16384

noncomputable section

namespace Cert.KernelIdeal.Spikes

open Idealize.ShloMosaic Idealize.ShloMosaic.TcCoe Idealize.SL.Sem Idealize.ShloMosaic.StableHlo
open Cert.KernelIdeal Cert.KernelIdeal.Gen Cert.Lif

variable (m : (ℓ : Loc nD τ sig) → Buf (Elt Ideal) ℓ) (ρ : Dev nD → PrngReg)

/-- The region finds its input array holding the currents laid out as [524288, 128]. -/
theorem input_eq (c : Dev nD) : (V m c main_v0 : S524288x128.Idx → Elt Ideal .f32)
    = shapeCast S524288x128 (m ((c : Thread nD τ).loc main_arg0)) Facts₀.shapeCasts_S16x32x128x32x32_S524288x128 := by
  show StableHlo.after hostOps0 (fun b => m (c, b)) (Proc.devRef .tc main_v0) = _
  after_results
  rfl

/-- What the line after the region leaves in the result: the array of spikes laid back out in the currents' shape,
    which is the spike of each current at its own index (laying out there and back is the identity). -/
theorem tail_eq (c : Dev nD) :
    Pipeline.afterTail₀ cfgs (dats m) 0 (V0 m) [hostOps1] c main_v2
      = fun i => spike (m ((c : Thread nD τ).loc main_arg0) i) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = spikes m c :=
    (Pipeline.withArrays_arr spec0 launch0.win.arr_inj c _ _ 1).trans (output_eq m c)
  rw [hw]
  funext i
  show spike (V m c main_v0 (Shape.reshapeEquiv Facts₀.shapeCasts_S524288x128_S16x32x128x32x32 i)) = _
  rw [input_eq]
  exact congrArg spike (congrFun (shapeCast_shapeCast (m ((c : Thread nD τ).loc main_arg0))
    Facts₀.shapeCasts_S16x32x128x32x32_S524288x128 Facts₀.shapeCasts_S524288x128_S16x32x128x32x32) i)

/-- Every weakly fair execution of the kernel program terminates with the result at the spikes of the currents
    and the currents unchanged. -/
theorem run : θ_run defs (onTc (τ := τ) (main (F := Ideal))) ⟨m, fun _ => 0, ρ⟩ fun r => ∀ c : Dev nD,
      r.2.mem ((c.tc : Thread nD τ).loc main_v2) = (fun i => spike (m ((c.tc : Thread nD τ).loc main_arg0) i))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Spikes

end
-- ==== Proof.lean ====
/-
  A leaky integrate-and-fire layer whose membrane potential is reset to zero before every timestep: the potential at
  a step is the input current itself, and a neuron fires when its current reaches the threshold one. Both programs
  therefore compute, for each of the 16·32·128·32·32 currents `x i`,

      spike (x i) = 1  if  1 ≤ x i,   0  otherwise.

  The kernel lays the currents out as [524288, 128], sweeps that array in 64 blocks of 8192 rows — comparing each
  current with the threshold, widening the one-bit answer to a word and converting the word as a signed integer — and
  lays the result back out in the original shape. The reference adds zero to the currents, compares with the same
  threshold, and converts the one-bit answer as an unsigned integer.

  On the extended reals the two agree at every index: `0 + a = a` for every extended real (the infinities included),
  a zero-extended bit reads the same signed and unsigned, the two re-layings of the kernel are inverse to each other,
  and its 64 blocks tile the array. The threshold appears in both programs as the same single-precision word and is
  never evaluated. Finiteness of the input is not used.

  The three frames are the programs' runs with the result dropped; no rewrite was applied in idealizing the kernel,
  so there is nothing to preserve; the equivalence states both runs with the array of spikes as their common result.
-/
import proofs.«141666_j17497696764281_1_alg».proof.Defs
import proofs.«141666_j17497696764281_1_alg».proof.Proof.Gen.Kernel
import proofs.«141666_j17497696764281_1_alg».proof.Proof.Gen.Kernel.Skeleton
import proofs.«141666_j17497696764281_1_alg».proof.Proof.Gen.Kernel.Launch
import proofs.«141666_j17497696764281_1_alg».proof.Proof.Gen.Kernel.Points
import proofs.«141666_j17497696764281_1_alg».proof.Proof.Gen.Kernel.Frame
import proofs.«141666_j17497696764281_1_alg».proof.Proof.Gen.KernelIdeal
import proofs.«141666_j17497696764281_1_alg».proof.Proof.Gen.KernelIdeal.Skeleton
import proofs.«141666_j17497696764281_1_alg».proof.Proof.Gen.KernelIdeal.Launch
import proofs.«141666_j17497696764281_1_alg».proof.Proof.Gen.KernelIdeal.Points
import proofs.«141666_j17497696764281_1_alg».proof.Proof.Gen.KernelIdeal.Frame
import proofs.«141666_j17497696764281_1_alg».proof.Proof.Gen.ReferenceIdeal
import proofs.«141666_j17497696764281_1_alg».proof.Proof.Gen.ReferenceIdeal.Run
import proofs.«141666_j17497696764281_1_alg».proof.Proof.Gen.ReferenceIdeal.Read
import proofs.«141666_j17497696764281_1_alg».proof.Proof.Gen.Pre_finite_inputs
import proofs.«141666_j17497696764281_1_alg».proof.Proof.Spike
import proofs.«141666_j17497696764281_1_alg».proof.Proof.ReferenceSpike
import proofs.«141666_j17497696764281_1_alg».proof.Proof.KernelBlocks
import proofs.«141666_j17497696764281_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves the currents as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves the currents as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the currents, both programs end with the array of spikes of those currents. -/
theorem algebraic : Cert.algebraic_KernelIdeal_ReferenceIdeal := by
  intro m ρ m' ρ' _ hagree
  refine ⟨fun c i => Cert.Lif.spike
      (m ((c.tc : Thread Cert.KernelIdeal.nD Cert.KernelIdeal.τ).loc Cert.KernelIdeal.main_arg0) i),
    Cert.KernelIdeal.Spikes.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Spikes.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
